-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4096x2048 .f32) (main_arg1 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S512x2048 : Shape := ⟨2, ![512, 2048]⟩
abbrev S512 : Shape := ⟨1, ![512]⟩

abbrev nBuf : Space → Nat
  | .hbm => 40
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x2048, .bf16⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512, .f32⟩
  | .local _ .vmem, ⟨4, _⟩ => ⟨S512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048x2048 : S_.BroadcastsInDim S2048x2048 (![] : Fin 0 → Fin S2048x2048.rank)
  transposes_S2048x2048_S2048x2048_1_0 : S2048x2048.Transposes [1, 0] S2048x2048
  reducesTo_S2048x2048_S_d0_1 : S2048x2048.ReducesTo [0, 1] S_
  h_S_ : 0 < S_.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S512x2048_S512 : S512x2048.Reduces [1] S512
  inb_S512_S512_0 : ∀ a, (![0] : Fin 1 → Nat) a + S512.size a ≤ S512.size a
  h_S512 : 0 < S512.numel
  bcast_S_S4096 : S_.BroadcastsInDim S4096 (![] : Fin 0 → Fin S4096.rank)
  reducesTo_S4096_S_d0 : S4096.ReducesTo [0] S_
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .i1⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .i32⟩
  | .hbm, ⟨9, _⟩ => ⟨S2048x2048, .i32⟩
  | .hbm, ⟨10, _⟩ => ⟨S_, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  transposes_S2048x2048_S2048x2048_1_0 : S2048x2048.Transposes [1, 0] S2048x2048
  reducesTo_S2048x2048_S_d0_1 : S2048x2048.ReducesTo [0, 1] S_
  h_S_ : 0 < S_.numel
  reducesTo_S4096x2048_S4096_d1 : S4096x2048.ReducesTo [1] S4096
  bcast_S_S4096 : S_.BroadcastsInDim S4096 (![] : Fin 0 → Fin S4096.rank)
  reducesTo_S4096_S_d0 : S4096.ReducesTo [0] S_
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  What both programs compute, as two functions over the literal shapes.

  * `rowQuad x u`: for each of the 4096 rows i of x, the quadratic form  ∑ⱼ (∑ₖ x(i,k) · u(k,j)) · x(i,j)  of the
    [2048, 2048] matrix u at that row.
  * `meanOver q n`: the mean over the 4096 rows of q(i) / n: every entry divided by the scalar n, the quotients summed
    from zero, the sum divided by 4096.

  The result of either program is `meanOver (rowQuad x u) n` with u the masked strict upper triangle of the binarized,
  symmetrized second argument and n the larger of its entry sum and one; u and n are the same host computation in both
  programs and are never opened.
-/
import proofs.«126926_j57896159150306_1_alg».proof.Proof.Gen.ReferenceIdeal
import Idealize.ShloMosaic.PureOps.Ideal
import Idealize.ShloMosaic.Lib.ValueIdx

noncomputable section

namespace Cert.Spec

open Cert.ReferenceIdeal Cert.ReferenceIdeal.Gen Idealize.ShloMosaic Idealize.ShloMosaic.ValueIdx

/-- The row number of an index of the [4096] result. -/
def row (i : S4096.Idx) : Fin 4096 := ⟨(i 0).val, (i 0).isLt⟩

/-- Row p of x against u: ∑ⱼ (∑ₖ x(p,k) · u(k,j)) · x(p,j). -/
def quadAt (x : S4096x2048.Idx → EReal) (u : S2048x2048.Idx → EReal) (p : Fin 4096) : EReal :=
  ∑ j : Fin 2048, (∑ k : Fin 2048, x (ix2 p k) * u (ix2 k j)) * x (ix2 p j)

/-- The quadratic form of u at every row of x. -/
def rowQuad (x : S4096x2048.Idx → EReal) (u : S2048x2048.Idx → EReal) : S4096.Idx → EReal :=
  fun i => quadAt x u (row i)

/-- The mean over the rows of q(i) / n. -/
def meanOver (q : FVec Ideal S4096 .f32) (n : FVec Ideal S_ .f32) : FVec Ideal S_ .f32 :=
  Host.divf (F := Ideal)
    (Host.reduceAdd (F := Ideal) (Host.divf (F := Ideal) q (broadcastInDim S4096 ![] bcast_S_S4096 n))
      (constant (F := Ideal) S_ .f32 0x00000000#32) reducesTo_S4096_S_d0 h_S_)
    (constant (F := Ideal) S_ .f32 0x45800000#32)

end Cert.Spec

end
-- ==== Proof.RefSide.lean ====
/-
  The reference's result is the mean over the rows of the quadratic form divided by the normalizer.

  Its row sums: the host's sum along axis 1 of (x · u) ∘ x starts from the zero word, which is the real 0, and the
  matrix product at (i, j) is ∑ₖ x(i,k) · u(k,j); so row i is ∑ⱼ (∑ₖ x(i,k) · u(k,j)) · x(i,j). The division by the
  broadcast normalizer, the sum over the rows and the division by 4096 are the same operations as `meanOver`'s.
-/
import proofs.«126926_j57896159150306_1_alg».proof.Proof.Gen.ReferenceIdeal.Run
import proofs.«126926_j57896159150306_1_alg».proof.Proof.Gen.ReferenceIdeal.Read
import proofs.«126926_j57896159150306_1_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.ValueIdx

theorem idx_row (i : S4096.Idx) (k : Fin 2048) : idx_main_v19 i k = ix2 (row i) k :=
  funext fun a => Fin.ext (by match a with | ⟨0, _⟩ => rfl | ⟨1, _⟩ => rfl)
theorem lidx_dot (p : Fin 4096) (j k : Fin 2048) : lidx_main_v17 (ix2 p j) k = ix2 p k :=
  funext fun a => Fin.ext (by match a with | ⟨0, _⟩ => rfl | ⟨1, _⟩ => rfl)
theorem ridx_dot (p : Fin 4096) (j k : Fin 2048) : ridx_main_v17 (ix2 p j) k = ix2 k j :=
  funext fun a => Fin.ext (by match a with | ⟨0, _⟩ => rfl | ⟨1, _⟩ => rfl)

/-- The reference's row sums are the quadratic form of its masked matrix. -/
theorem rowsum_eq (x0 : FVec Ideal S4096x2048 .f32) (x1 : FVec Ideal S2048x2048 .f32) :
    val_main_v19 (F := Ideal) x0 x1 = rowQuad x0 (val_main_v14 (F := Ideal) x1) := by
  funext i
  rw [val_main_v19_apply, val_main_cst_3_apply]
  show Ideal.ofBits .f32 0x00000000#32 + _ = _
  rw [Ideal.ofBits_zero_f32, zero_add]
  unfold rowQuad quadAt
  refine Finset.sum_congr rfl fun j _ => ?_
  rw [val_main_v18_apply, idx_row, val_main_v17_apply]
  simp only [lidx_dot, ridx_dot]
  rfl

/-- The reference's result. -/
theorem result_eq (x0 : FVec Ideal S4096x2048 .f32) (x1 : FVec Ideal S2048x2048 .f32) :
    val_main_v23 (F := Ideal) x0 x1 = meanOver (rowQuad x0 (val_main_v14 (F := Ideal) x1)) (val_main_v16 (F := Ideal) x1) := by
  rw [← rowsum_eq]
  rfl

end Cert.ReferenceIdeal.RefValue

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowSum.lean ====
/-
  A general lemma for reading a kernel's lane reduction at an index, at the ideal instance.

  * `multiReduction_add_rows_apply`: the sum of an [R, K] single-precision vector along its last axis, accumulated
    from the zero word, read at row r, is the sum over k of the vector at (r, k).
-/
import Idealize.ShloMosaic.PureOps.Ideal.Laws
import Idealize.ShloMosaic.Lib.ValueIdx

noncomputable section

namespace Cert.LibRowSum

open Idealize.ShloMosaic Idealize.ShloMosaic.ValueIdx

/-- A row-wise add reduction of an [R, K] vector read at row r: ∑ₖ v (r, k). -/
theorem multiReduction_add_rows_apply {R K : ℕ} (v : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ v 0x00000000#32 h hφ hacc (ix1 r) = ∑ k : Fin K, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

end Cert.LibRowSum

end
-- ==== Proof.KernelRow.lean ====
/-
  The kernel body's stored value, read at a row, at the ideal instance.

  The body loads a [512, 2048] block x of the first argument and the whole [2048, 2048] matrix u, forms the matrix
  product x·u into a zero accumulator (the narrowing of x to the half-width format and the recast of u to its own shape
  are the identity on extended reals), multiplies the product entrywise with x and sums each row. So row r of what it
  stores is  ∑ⱼ (∑ₖ x(r,k) · u(k,j)) · x(r,j):  the quadratic form of u at row r of x.
-/
import proofs.«126926_j57896159150306_1_alg».proof.Proof.Gen.KernelIdeal.Skeleton
import proofs.«126926_j57896159150306_1_alg».proof.Proof.LibPlainDot
import proofs.«126926_j57896159150306_1_alg».proof.Proof.LibRowSum
import Idealize.ShloMosaic.Lib.Pipeline.Value

noncomputable section

namespace Cert.KernelIdeal.Row

open Cert.KernelIdeal Cert.KernelIdeal.Gen Idealize.ShloMosaic Idealize.ShloMosaic.ValueIdx

/-! The four axis facts of the body's matrix product: the output's row comes from the left operand's axis 0, its column
    from the right operand's axis 1, and the one contracted index sits on the left's axis 1 and the right's axis 0. -/

theorem lhs_dot_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_dot_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_dot_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_dot_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The body's matrix product at (r, j): ∑ₖ x(r,k) · u(k,j). -/
theorem prod_apply (x : FVec Ideal S512x2048 .f32) (u : FVec Ideal S2048x2048 .bf16) (r : Fin 512) (j : Fin 2048) :
    matmul (F := Ideal) dot_S512x2048_S2048x2048_S512x2048_1_0_0_1_n_n none (truncf .bf16 x bitsLt_bf16_f32) (shapeCast S2048x2048 u shapeCasts_S2048x2048_S2048x2048)
        (constant S512x2048 .f32 0x00000000#32) (ix2 r j)
      = ∑ k : Fin 2048, x (ix2 r k) * u (ix2 k j) := by
  refine (Cert.Lib.matmul_plain_apply (M := 512) (K := 2048) (N := 2048) dot_S512x2048_S2048x2048_S512x2048_1_0_0_1_n_n rfl rfl lhs_dot_0 lhs_dot_1 rhs_dot_0 rhs_dot_1
    none _ _ r j).trans ?_
  refine Finset.sum_congr rfl fun k _ => ?_
  rw [shapeCast_self]
  rfl

/-- Row r of what the body stores: ∑ⱼ (∑ₖ x(r,k) · u(k,j)) · x(r,j). -/
theorem pay_row (x : Vec Ideal S512x2048 .f32) (u : Vec Ideal S2048x2048 .bf16) (r : Fin 512) :
    k0_pay1 (F := Ideal) x u (ix1 r) = ∑ j : Fin 2048, (∑ k : Fin 2048, x (ix2 r k) * u (ix2 k j)) * x (ix2 r j) := by
  unfold k0_pay1
  refine (Cert.LibRowSum.multiReduction_add_rows_apply (R := 512) (K := 2048) _ _ _ _ r).trans ?_
  refine Finset.sum_congr rfl fun j _ => ?_
  exact congrArg (· * x (ix2 r j)) (prod_apply x u r j)

end Cert.KernelIdeal.Row

end
-- ==== Proof.KernelArr.lean ====
/-
  The kernel's output array after the run, as one function of the arrays the region reads.

  Grid point t (of 8) reads rows 512·t … 512·t + 511 of the first argument and the whole [2048, 2048] matrix, and writes
  back entries 512·t … 512·t + 511 of the [4096] result. Entry r of what it writes is the quadratic form of the matrix
  at row r of its block, that is at row 512·t + r of the argument; the eight blocks tile the result, so the result
  array ends holding the quadratic form of the matrix at every row of the argument.
-/
import proofs.«126926_j57896159150306_1_alg».proof.Proof.Gen.KernelIdeal.Frame
import proofs.«126926_j57896159150306_1_alg».proof.Proof.KernelRow
import proofs.«126926_j57896159150306_1_alg».proof.Proof.Spec
import Idealize.ShloMosaic.Lib.Pipeline.Value

noncomputable section

namespace Cert.KernelIdeal.Arr

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The first argument and the matrix as the region finds them. -/
abbrev xarr (c : Dev nD) : FVec Ideal S4096x2048 .f32 := V m c main_arg0
abbrev uarr (c : Dev nD) : FVec Ideal S2048x2048 .bf16 := V m c main_v17

theorem hz1 : (![0] : Fin 1 → Nat) = fun _ => 0 := funext fun a => by fin_cases a <;> rfl
theorem hz2 : (![0, 0] : Fin 2 → Nat) = fun _ => 0 := funext fun a => by fin_cases a <;> rfl

/-- A row of a block against the whole matrix: if row y of the block x is row p of X and the block u is U, what the
    body stores at y is the quadratic form of U at row p of X. -/
theorem row_of_blocks (X : FVec Ideal S4096x2048 .f32) (U : FVec Ideal S2048x2048 .bf16)
    (x : Vec Ideal S512x2048 .f32) (u : Vec Ideal S2048x2048 .bf16) (y : S512.Idx) (p : Fin 4096)
    (hx : ∀ k : Fin 2048, x (ix2 (y 0) k) = X (ix2 p k)) (hu : ∀ k j : Fin 2048, u (ix2 k j) = U (ix2 k j)) :
    k0_pay1 (F := Ideal) x u y = quadAt X U p := by
  refine (congrArg (k0_pay1 (F := Ideal) x u) (eq_ix1 y)).trans ((Row.pay_row x u (y 0)).trans ?_)
  unfold quadAt
  refine Finset.sum_congr rfl fun j _ => ?_
  simp only [hx, hu]

/-- The printed index maps over the grid: point t takes block row t of the argument, the one block of the matrix, and
    block t of the result. -/
theorem idx_facts : ∀ t : Fin cfg0.N, win0_0.index t (0 : Fin 2) = win0_2.index t (0 : Fin 1)
    ∧ win0_0.index t (1 : Fin 2) = 0
    ∧ win0_1.index t (0 : Fin 2) = 0
    ∧ win0_1.index t (1 : Fin 2) = 0 :=
  (by decide +kernel : ∀ t : Fin grid0.N, _)

/-- Every block of the result is some point's. -/
theorem idx_onto : ∀ q : Fin 8, ∃ t : Fin cfg0.N, win0_2.index t = ![q.val] :=
  (by decide +kernel : ∀ q : Fin 8, ∃ t : Fin grid0.N, win0_2.index t = ![q.val])

/-- What point t writes back is block t of the quadratic form of the matrix at the rows of the argument. -/
theorem flushed_eq (c : Dev nD) (t : Fin cfg0.N) :
    (dats m 0 c).flushed 2 t = ((cfg0.win 2).blk t).view.read (Elt Ideal) (rowQuad (xarr m c) (uarr m c)) := by
  show (cfg0.win 2).cut (grid0.coords t) ((dats m 0 c).after 2 t) = _
  rw [after0_2]
  unfold out0_2
  rw [View.canon_unit_zero hz1]
  simp only [View.ld_unit_zero (S := S512x2048) hz2, View.ld_unit_zero (S := S2048x2048) hz2]
  obtain ⟨e0, e1, e2, e3⟩ := idx_facts t
  funext j
  show k0_pay1 (F := Ideal) (iblk m c 0 t) (iblk m c 1 t) j = rowQuad (xarr m c) (uarr m c) (((cfg0.win 2).blk t).view.emb j)
  refine row_of_blocks (xarr m c) (uarr m c) (iblk m c 0 t) (iblk m c 1 t) j (row (((cfg0.win 2).blk t).view.emb j))
    (fun k => ?_) (fun k jj => ?_)
  · show V m c main_arg0 (((cfg0.win 0).blk t).view.emb (ix2 (j 0) k))
      = V m c main_arg0 (ix2 (row (((cfg0.win 2).blk t).view.emb j)) k)
    refine congrArg _ (funext fun a => Fin.ext ?_)
    match a with
    | ⟨0, _⟩ => show win0_0.index t (0 : Fin 2) * 512 + 1 * (j 0).val = win0_2.index t (0 : Fin 1) * 512 + 1 * (j 0).val; omega
    | ⟨1, _⟩ => show win0_0.index t (1 : Fin 2) * 2048 + 1 * k.val = k.val; omega
  · show V m c main_v17 (((cfg0.win 1).blk t).view.emb (ix2 k jj)) = V m c main_v17 (ix2 k jj)
    refine congrArg _ (funext fun a => Fin.ext ?_)
    match a with
    | ⟨0, _⟩ => show win0_1.index t (0 : Fin 2) * 2048 + 1 * k.val = k.val; omega
    | ⟨1, _⟩ => show win0_1.index t (1 : Fin 2) * 2048 + 1 * jj.val = jj.val; omega

/-- An entry of the result is in point t's block iff it lies in the block's range. -/
theorem mem_blk (t : Fin cfg0.N) (i : S4096.Idx) :
    i ∈ ((cfg0.win 2).blk t).view.set ↔ ∀ a : Fin 1, win0_2.index t a * S512.size a ≤ (i a).val ∧ (i a).val < win0_2.index t a * S512.size a + S512.size a := by
  show i ∈ ((View.whole main_v18).slice (win0_2.rect t)).set ↔ _
  rw [View.set_slice_whole, Rect.mem_set_unit]
  exact Iff.rfl

/-- The eight blocks tile the result: entry i is in block i / 512. -/
theorem cover (i : S4096.Idx) : ∃ t : Fin cfg0.N, (cfg0.win 2).flush t = true ∧ i ∈ ((cfg0.win 2).blk t).view.set := by
  have hi : (i 0).val < 4096 := (i 0).isLt
  obtain ⟨t, ht⟩ := idx_onto ⟨(i 0).val / 512, by omega⟩
  have q0 : win0_2.index t (0 : Fin 1) = (i 0).val / 512 := congrFun ht 0
  refine ⟨t, flush0_2 t, ?_⟩
  rw [mem_blk]
  intro a
  match a with
  | ⟨0, _⟩ => show win0_2.index t (0 : Fin 1) * 512 ≤ (i 0).val ∧ (i 0).val < win0_2.index t (0 : Fin 1) * 512 + 512; omega

/-- The result array after the run. -/
theorem final (c : Dev nD) : (dats m 0 c).arrAt 2 cfg0.N = rowQuad (xarr m c) (uarr m c) :=
  (dats m 0 c).arrAt_eq_of_cover 2 (rowQuad (xarr m c) (uarr m c)) (fun t _ => flushed_eq m c t) cover

end Cert.KernelIdeal.Arr

end
-- ==== Proof.KernelHost.lean ====
/-
  The kernel program's host operations around its one region, read at the ideal instance.

  Before the region both programs run the same host lines on the second argument: binarize (entry > 0), take the
  larger of the matrix and its transpose, clear the diagonal, keep the strict upper triangle; the normalizer is the
  larger of that matrix's entry sum and one. The kernel program then narrows the matrix to the half-width format, which
  is the identity on extended reals. So the matrix the region reads and the normalizer are the reference's own masked
  matrix and normalizer of the second argument, term for term.

  After the region the host divides the region's [4096] result by the broadcast normalizer, sums the quotients from
  zero and divides by 4096: `meanOver` of the region's result and the normalizer.
-/
import proofs.«126926_j57896159150306_1_alg».proof.Proof.Gen.KernelIdeal.Frame
import proofs.«126926_j57896159150306_1_alg».proof.Proof.Gen.ReferenceIdeal.Read
import proofs.«126926_j57896159150306_1_alg».proof.Proof.Spec
import proofs.«126926_j57896159150306_1_alg».proof.Proof.KernelArr
import Idealize.ShloMosaic.Lib.StableHlo.Run

noncomputable section

namespace Cert.KernelIdeal.HostSide

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ)

set_option maxRecDepth 8192 in
/-- The matrix the region reads is the reference's masked matrix of the second argument. -/
theorem upper_eq (c : Dev nD) :
    Arr.uarr m c = Cert.ReferenceIdeal.Read.val_main_v14 (F := Ideal) (m ((c : Thread nD τ).loc main_arg1)) := by
  show StableHlo.after (List.flatten [hostOps0, hostOps0_1, hostOps0_2]) (fun b => m (c, b)) (Proc.devRef .tc main_v17) = _
  simp only [hostOps0, hostOps0_1, hostOps0_2, List.flatten_cons, List.flatten_nil, List.append_nil, List.cons_append, List.nil_append]
  after_results_simp
  rfl

set_option maxRecDepth 8192 in
/-- The normalizer the host computes before the region is the reference's. -/
theorem norm_eq (c : Dev nD) :
    (V0 m c (Proc.devRef .tc main_v16) : FVec Ideal S_ .f32)
      = Cert.ReferenceIdeal.Read.val_main_v16 (F := Ideal) (m ((c : Thread nD τ).loc main_arg1)) := by
  show StableHlo.after (List.flatten [hostOps0, hostOps0_1, hostOps0_2]) (fun b => m (c, b)) (Proc.devRef .tc main_v16) = _
  simp only [hostOps0, hostOps0_1, hostOps0_2, List.flatten_cons, List.flatten_nil, List.append_nil, List.cons_append, List.nil_append]
  after_results_simp
  rfl

/-- The program's result after the host lines that follow the region: the mean over the rows of the quadratic form of
    the masked matrix at the rows of the first argument, divided by the normalizer. -/
theorem result_eq (c : Dev nD) :
    (Pipeline.afterTail₀ cfgs (dats m) 0 (V0 m) [hostOps1] c main_v22 : FVec Ideal S_ .f32)
      = meanOver (rowQuad (m ((c : Thread nD τ).loc main_arg0)) (Cert.ReferenceIdeal.Read.val_main_v14 (F := Ideal) (m ((c : Thread nD τ).loc main_arg1))))
          (Cert.ReferenceIdeal.Read.val_main_v16 (F := Ideal) (m ((c : Thread nD τ).loc main_arg1))) := by
  have h18 : Pipeline.withArrays spec0 c (V0 m c) (fun w => (dats m 0 c).arrAt w cfg0.N) (Proc.devRef .tc main_v18)
      = rowQuad (Arr.xarr m c) (Arr.uarr m c) :=
    (Pipeline.withArrays_arr spec0 launch0.win.arr_inj c _ _ 2).trans (Arr.final m c)
  have h16 : Pipeline.withArrays spec0 c (V0 m c) (fun w => (dats m 0 c).arrAt w cfg0.N) (Proc.devRef .tc main_v16)
      = V0 m c (Proc.devRef .tc main_v16) :=
    Pipeline.withArrays_of_ne _ c (V0 m c) _ main_v16 (by exact (by decide : ∀ w, Pipeline.arrRef spec0 w ≠ main_v16))
  unfold Pipeline.afterTail₀
  show StableHlo.after hostOps1 _ (Proc.devRef .tc main_v22) = _
  after_results
  rw [h18, h16, norm_eq, upper_eq]
  show meanOver (rowQuad (V m c main_arg0) _) _ = _
  rw [V_main_arg0]

/-- The kernel program's run, read: every weakly fair execution ends with the result at that mean and the two arguments
    as launched. The result is a buffer no window stages, so it ends as the host lines after the region leave it; the
    first argument is a staged input, which ends at its entry contents; the second is written by no host line. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
          = meanOver (rowQuad (m ((c : Thread nD τ).loc main_arg0)) (Cert.ReferenceIdeal.Read.val_main_v14 (F := Ideal) (m ((c : Thread nD τ).loc main_arg1))))
              (Cert.ReferenceIdeal.Read.val_main_v16 (F := Ideal) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v22 (Pipeline.mem_restRefs_of main_v22 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.HostSide

end
-- ==== Proof.lean ====
/-
  The certificate: the kernel program and its reference compute, over the extended reals, the same number.

  Both programs first turn the second argument into a matrix u (entry > 0, symmetrized by the larger of the matrix and
  its transpose, diagonal cleared, strict upper triangle kept) and a normalizer n (the larger of u's entry sum and one),
  by the same host lines. The kernel program's one region then computes, block of 512 rows by block, the quadratic form
  ∑ⱼ (∑ₖ x(i,k) · u(k,j)) · x(i,j) of u at every row i of the first argument x: a matrix product into a zero accumulator,
  an entrywise product with x and a row sum; narrowing to the half-width format is the identity on extended reals. The
  reference computes the same row sums with one whole matrix product. Both then take the mean over the 4096 rows of the
  row sums divided by n. No algebraic law beyond reading the two sums at an index is needed, and the precondition is
  never opened.

  The three frames: the two kernel programs' are the generated frame runs; the reference's is its generated run with
  the result dropped. The idealization rewrote nothing, so its claim is trivial.
-/
import proofs.«126926_j57896159150306_1_alg».proof.Defs
import proofs.«126926_j57896159150306_1_alg».proof.Proof.Gen.Kernel
import proofs.«126926_j57896159150306_1_alg».proof.Proof.Gen.Kernel.Skeleton
import proofs.«126926_j57896159150306_1_alg».proof.Proof.Gen.Kernel.Launch
import proofs.«126926_j57896159150306_1_alg».proof.Proof.Gen.Kernel.Points
import proofs.«126926_j57896159150306_1_alg».proof.Proof.Gen.Kernel.Frame
import proofs.«126926_j57896159150306_1_alg».proof.Proof.Gen.KernelIdeal
import proofs.«126926_j57896159150306_1_alg».proof.Proof.Gen.KernelIdeal.Skeleton
import proofs.«126926_j57896159150306_1_alg».proof.Proof.Gen.KernelIdeal.Launch
import proofs.«126926_j57896159150306_1_alg».proof.Proof.Gen.KernelIdeal.Points
import proofs.«126926_j57896159150306_1_alg».proof.Proof.Gen.KernelIdeal.Frame
import proofs.«126926_j57896159150306_1_alg».proof.Proof.Gen.ReferenceIdeal
import proofs.«126926_j57896159150306_1_alg».proof.Proof.Gen.ReferenceIdeal.Run
import proofs.«126926_j57896159150306_1_alg».proof.Proof.Gen.ReferenceIdeal.Read
import proofs.«126926_j57896159150306_1_alg».proof.Proof.Gen.Pre_finite_inputs
import proofs.«126926_j57896159150306_1_alg».proof.Proof.RefSide
import proofs.«126926_j57896159150306_1_alg».proof.Proof.KernelHost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the mean over the rows of the quadratic form of the masked matrix, divided by the normalizer:
    the kernel program by its run read through the region's blocks, the reference by its run read one operation at a
    time, at arguments that agree. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
